-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x256 : S_.BroadcastsInDim S512x256 (![] : Fin 0 → Fin S512x256.rank)
  reducesTo_S512x256_S_d0_1 : S512x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_

variable [Facts]

def fn_part2 {F : FTy → Type} [FloatOps F] (main_arg7 : FVec F S128 .f32) (main_arg8 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128 .f32 := Host.absf main_arg8
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg4 : FVec F S256 .f32) (main_arg5 : FVec F S256x128 .f32) (main_arg6 : FVec F S128 .f32) (main_arg7 : FVec F S128 .f32) (main_arg8 : FVec F S128 .f32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x128 .f32 := Host.absf main_arg5
  let main_cst_8 : FVec F S_ .f32 := constant S_ .f32 0x7F800000#32
  let main_v25 : FVec F S256x128 .f32 := broadcastInDim S256x128 ![] bcast_S_S256x128 main_cst_8
  let main_v26 : IVec S256x128 1 := cmpf .olt main_v24 main_v25
  let main_c_9 : IVec S_ 1 := constantI S_ 1 1#1
  let main_v27 : IVec S_ 1 := (fun x v => Host.reduce IntOp.andi x v reducesTo_S256x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_v33

def fn {F : FTy → Type} [FloatOps F] (main_arg0 : FVec F S16384x512 .f32) (main_arg1 : FVec F S512x256 .f32) (main_arg2 : FVec F S256 .f32) (main_arg3 : FVec F S256x256 .f32) (main_arg4 : FVec F S256 .f32) (main_arg5 : FVec F S256x128 .f32) (main_arg6 : FVec F S128 .f32) (main_arg7 : FVec F S128 .f32) (main_arg8 : FVec F S128 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S512x256 .f32 := Host.absf main_arg1
  let main_cst_0 : FVec F S_ .f32 := constant S_ .f32 0x7F800000#32
  let main_v5 : FVec F S512x256 .f32 := broadcastInDim S512x256 ![] bcast_S_S512x256 main_cst_0
  let main_v6 : IVec S512x256 1 := cmpf .olt main_v4 main_v5
  let main_c_1 : IVec S_ 1 := constantI S_ 1 1#1
  let main_v7 : IVec S_ 1 := (fun x v => Host.reduce IntOp.andi x v reducesTo_S512x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_v13 main_v16
-- ==== Kernel.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S1x256 : Shape := ⟨2, ![1, 256]⟩
abbrev S1x128 : Shape := ⟨2, ![1, 128]⟩
abbrev S16384x128 : Shape := ⟨2, ![16384, 128]⟩
abbrev S1024x512 : Shape := ⟨2, ![1024, 512]⟩
abbrev S1024x128 : Shape := ⟨2, ![1024, 128]⟩
abbrev S1024x256 : Shape := ⟨2, ![1024, 256]⟩
abbrev S1024 : Shape := ⟨1, ![1024]⟩
abbrev S1024x1 : Shape := ⟨2, ![1024, 1]⟩

abbrev nBuf : Space → Nat
  | .hbm => 15
  | .vmem => 12
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S1x256, .f32⟩
  | .hbm, ⟨10, _⟩ => ⟨S1x256, .f32⟩
  | .hbm, ⟨11, _⟩ => ⟨S1x128, .f32⟩
  | .hbm, ⟨12, _⟩ => ⟨S1x128, .f32⟩
  | .hbm, ⟨13, _⟩ => ⟨S1x128, .f32⟩
  | .hbm, ⟨14, _⟩ => ⟨S16384x128, .f32⟩
  | .local _ .vmem, ⟨0, _⟩ => ⟨S1024x512, .f32⟩
  | .local _ .vmem, ⟨1, _⟩ => ⟨S1024x512, .f32⟩
  | .local _ .vmem, ⟨2, _⟩ => ⟨S512x256, .f32⟩
  | .local _ .vmem, ⟨3, _⟩ => ⟨S1x256, .f32⟩
  | .local _ .vmem, ⟨4, _⟩ => ⟨S256x256, .f32⟩
  | .local _ .vmem, ⟨5, _⟩ => ⟨S1x256, .f32⟩
  | .local _ .vmem, ⟨6, _⟩ => ⟨S256x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1024x128, .f32⟩
  | .local _ .vmem, ⟨11, _⟩ => ⟨S1024x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg9_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem9_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S256_S1x256 : S256.ShapeCasts S1x256
  shapeCasts_S128_S1x128 : S128.ShapeCasts S1x128
  inb_S1024x512_S1024x512_0_0 : ∀ a, (![0, 0] : Fin 2 → Nat) a + S1024x512.size a ≤ S1024x512.size a
  h_S1024x512 : 0 < S1024x512.numel
  inb_S512x256_S512x256_0_0 : ∀ a, (![0, 0] : Fin 2 → Nat) a + S512x256.size a ≤ S512x256.size a
  h_S512x256 : 0 < S512x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S1024x256 : S1x256.Broadcasts S1024x256
  inb_S256x256_S256x256_0_0 : ∀ a, (![0, 0] : Fin 2 → Nat) a + S256x256.size a ≤ S256x256.size a
  h_S256x256 : 0 < S256x256.numel
  inb_S256x128_S256x128_0_0 : ∀ a, (![0, 0] : Fin 2 → Nat) a + S256x128.size a ≤ S256x128.size a
  h_S256x128 : 0 < S256x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S1024x128 : S1x128.Broadcasts S1024x128
  reduces_S1024x128_S1024 : S1024x128.Reduces [1] S1024
  shapeCasts_S1024_S1024x1 : S1024.ShapeCasts S1024x1
  broadcasts_S1024x1_S1024x128 : S1024x1.Broadcasts S1024x128
  inb_S1024x128_S1024x128_0_0 : ∀ a, (![0, 0] : Fin 2 → Nat) a + S1024x128.size a ≤ S1024x128.size a
  h_S1024x128 : 0 < S1024x128.numel
  dot_S1024x512_S512x256_S1024x256_1_0_0_1_n_n_wf : DotDims.WF S1024x512 S512x256 S1024x256 [1] [0] [0] [1] [] []
  dot_S1024x256_S256x256_S1024x256_1_0_0_1_n_n_wf : DotDims.WF S1024x256 S256x256 S1024x256 [1] [0] [0] [1] [] []
  dot_S1024x256_S256x128_S1024x128_1_0_0_1_n_n_wf : DotDims.WF S1024x256 S256x128 S1024x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S16384x512.size a
  hwx0_0 : ∀ i : grid0.Coords, EltTy.bits .f32 = 32 ∨ (Rect.block (s := S16384x512) S1024x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S512x256.size a
  hwx0_1 : ∀ i : grid0.Coords, EltTy.bits .f32 = 32 ∨ (Rect.block (s := S512x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x256.size a ≤ S1x256.size a
  hwx0_2 : ∀ i : grid0.Coords, EltTy.bits .f32 = 32 ∨ (Rect.block (s := S1x256) S1x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x128.size a ≤ S256x128.size a
  hwx0_5 : ∀ i : grid0.Coords, EltTy.bits .f32 = 32 ∨ (Rect.block (s := S256x128) S256x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x128.size a
  hwx0_7 : ∀ i : grid0.Coords, EltTy.bits .f32 = 32 ∨ (Rect.block (s := S1x128) S1x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x128.size a ≤ S1x128.size a
  hwx0_8 : ∀ i : grid0.Coords, EltTy.bits .f32 = 32 ∨ (Rect.block (s := S1x128) S1x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1024x128.size a ≤ S16384x128.size a
  hwx0_9 : ∀ i : grid0.Coords, EltTy.bits .f32 = 32 ∨ (Rect.block (s := S16384x128) S1024x128.size (cc0_transform_9 i) (hinb0_9 i)).WholeWords (EltTy.packing .f32)

variable [Facts₀]

def dot_S1024x512_S512x256_S1024x256_1_0_0_1_n_n : DotDims S1024x512 S512x256 S1024x256 where
  lhsContracting := [1]
  rhsContracting := [0]
  lhsNonContracting := [0]
  rhsNonContracting := [1]
  lhsBatch := []
  rhsBatch := []
  wf := dot_S1024x512_S512x256_S1024x256_1_0_0_1_n_n_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S1024x256_S256x128_S1024x128_1_0_0_1_n_n : DotDims S1024x256 S256x128 S1024x128 where
  lhsContracting := [1]
  rhsContracting := [0]
  lhsNonContracting := [0]
  rhsNonContracting := [1]
  lhsBatch := []
  rhsBatch := []
  wf := dot_S1024x256_S256x128_S1024x128_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v3) S1x128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v4) S1x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v5) S1024x128.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x256 : Shape := ⟨2, ![512, 256]⟩
abbrev S256 : Shape := ⟨1, ![256]⟩
abbrev S256x256 : Shape := ⟨2, ![256, 256]⟩
abbrev S256x128 : Shape := ⟨2, ![256, 128]⟩
abbrev S128 : Shape := ⟨1, ![128]⟩
abbrev S16384x256 : Shape := ⟨2, ![16384, 256]⟩
abbrev S1x256 : Shape := ⟨2, ![1, 256]⟩
abbrev S_ : Shape := ⟨0, ![]⟩
abbrev S16384x128 : Shape := ⟨2, ![16384, 128]⟩
abbrev S1x128 : Shape := ⟨2, ![1, 128]⟩
abbrev S16384 : Shape := ⟨1, ![16384]⟩
abbrev S16384x1 : Shape := ⟨2, ![16384, 1]⟩

abbrev nBuf : Space → Nat
  | .hbm => 56
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S512x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x128, .f32⟩
  | .hbm, ⟨6, _⟩ => ⟨S128, .f32⟩
  | .hbm, ⟨7, _⟩ => ⟨S128, .f32⟩
  | .hbm, ⟨8, _⟩ => ⟨S128, .f32⟩
  | .hbm, ⟨9, _⟩ => ⟨S16384x256, .f32⟩
  | .hbm, ⟨10, _⟩ => ⟨S1x256, .f32⟩
  | .hbm, ⟨11, _⟩ => ⟨S16384x256, .f32⟩
  | .hbm, ⟨12, _⟩ => ⟨S16384x256, .f32⟩
  | .hbm, ⟨13, _⟩ => ⟨S_, .f32⟩
  | .hbm, ⟨14, _⟩ => ⟨S16384x256, .f32⟩
  | .hbm, ⟨15, _⟩ => ⟨S16384x256, .f32⟩
  | .hbm, ⟨16, _⟩ => ⟨S16384x256, .f32⟩
  | .hbm, ⟨17, _⟩ => ⟨S1x256, .f32⟩
  | .hbm, ⟨18, _⟩ => ⟨S16384x256, .f32⟩
  | .hbm, ⟨19, _⟩ => ⟨S16384x256, .f32⟩
  | .hbm, ⟨20, _⟩ => ⟨S_, .f32⟩
  | .hbm, ⟨21, _⟩ => ⟨S16384x256, .f32⟩
  | .hbm, ⟨22, _⟩ => ⟨S16384x256, .f32⟩
  | .hbm, ⟨23, _⟩ => ⟨S16384x128, .f32⟩
  | .hbm, ⟨24, _⟩ => ⟨S1x128, .f32⟩
  | .hbm, ⟨25, _⟩ => ⟨S16384x128, .f32⟩
  | .hbm, ⟨26, _⟩ => ⟨S16384x128, .f32⟩
  | .hbm, ⟨27, _⟩ => ⟨S_, .f32⟩
  | .hbm, ⟨28, _⟩ => ⟨S16384, .f32⟩
  | .hbm, ⟨29, _⟩ => ⟨S16384x1, .f32⟩
  | .hbm, ⟨30, _⟩ => ⟨S_, .f32⟩
  | .hbm, ⟨31, _⟩ => ⟨S16384x1, .f32⟩
  | .hbm, ⟨32, _⟩ => ⟨S16384x1, .f32⟩
  | .hbm, ⟨33, _⟩ => ⟨S16384x128, .f32⟩
  | .hbm, ⟨34, _⟩ => ⟨S16384x128, .f32⟩
  | .hbm, ⟨35, _⟩ => ⟨S16384x128, .f32⟩
  | .hbm, ⟨36, _⟩ => ⟨S_, .f32⟩
  | .hbm, ⟨37, _⟩ => ⟨S16384, .f32⟩
  | .hbm, ⟨38, _⟩ => ⟨S16384x1, .f32⟩
  | .hbm, ⟨39, _⟩ => ⟨S_, .f32⟩
  | .hbm, ⟨40, _⟩ => ⟨S16384x1, .f32⟩
  | .hbm, ⟨41, _⟩ => ⟨S16384x1, .f32⟩
  | .hbm, ⟨42, _⟩ => ⟨S16384x128, .f32⟩
  | .hbm, ⟨43, _⟩ => ⟨S16384x128, .f32⟩
  | .hbm, ⟨44, _⟩ => ⟨S_, .f32⟩
  | .hbm, ⟨45, _⟩ => ⟨S16384x1, .f32⟩
  | .hbm, ⟨46, _⟩ => ⟨S16384x1, .f32⟩
  | .hbm, ⟨47, _⟩ => ⟨S16384x1, .f32⟩
  | .hbm, ⟨48, _⟩ => ⟨S16384x128, .f32⟩
  | .hbm, ⟨49, _⟩ => ⟨S16384x128, .f32⟩
  | .hbm, ⟨50, _⟩ => ⟨S1x128, .f32⟩
  | .hbm, ⟨51, _⟩ => ⟨S16384x128, .f32⟩
  | .hbm, ⟨52, _⟩ => ⟨S16384x128, .f32⟩
  | .hbm, ⟨53, _⟩ => ⟨S1x128, .f32⟩
  | .hbm, ⟨54, _⟩ => ⟨S16384x128, .f32⟩
  | .hbm, ⟨55, _⟩ => ⟨S16384x128, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_0 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_1 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩

abbrev nD : Nat := 1
abbrev τ : Topo := Topo.v7x

variable {F : FTy → Type} [FloatOps F]

class Facts₀ : Prop where
  bcast_S256_S1x256_1 : S256.BroadcastsInDim S1x256 (![1] : Fin 1 → Fin S1x256.rank)
  bcast_S1x256_S16384x256_0_1 : S1x256.BroadcastsInDim S16384x256 (![0, 1] : Fin 2 → Fin S16384x256.rank)
  bcast_S_S16384x256 : S_.BroadcastsInDim S16384x256 (![] : Fin 0 → Fin S16384x256.rank)
  bcast_S128_S1x128_1 : S128.BroadcastsInDim S1x128 (![1] : Fin 1 → Fin S1x128.rank)
  bcast_S1x128_S16384x128_0_1 : S1x128.BroadcastsInDim S16384x128 (![0, 1] : Fin 2 → Fin S16384x128.rank)
  reducesTo_S16384x128_S16384_d1 : S16384x128.ReducesTo [1] S16384
  h_S_ : 0 < S_.numel
  bcast_S16384_S16384x1_0 : S16384.BroadcastsInDim S16384x1 (![0] : Fin 1 → Fin S16384x1.rank)
  bcast_S_S16384x1 : S_.BroadcastsInDim S16384x1 (![] : Fin 0 → Fin S16384x1.rank)
  bcast_S16384x1_S16384x128_0_1 : S16384x1.BroadcastsInDim S16384x128 (![0, 1] : Fin 2 → Fin S16384x128.rank)
  dot_S16384x512_S512x256_S16384x256_1_0_0_1_n_n_wf : DotDims.WF S16384x512 S512x256 S16384x256 [1] [0] [0] [1] [] []
  dot_S16384x256_S256x256_S16384x256_1_0_0_1_n_n_wf : DotDims.WF S16384x256 S256x256 S16384x256 [1] [0] [0] [1] [] []
  dot_S16384x256_S256x128_S16384x128_1_0_0_1_n_n_wf : DotDims.WF S16384x256 S256x128 S16384x128 [1] [0] [0] [1] [] []

variable [Facts₀]

def dot_S16384x512_S512x256_S16384x256_1_0_0_1_n_n : DotDims S16384x512 S512x256 S16384x256 where
  lhsContracting := [1]
  rhsContracting := [0]
  lhsNonContracting := [0]
  rhsNonContracting := [1]
  lhsBatch := []
  rhsBatch := []
  wf := dot_S16384x512_S512x256_S16384x256_1_0_0_1_n_n_wf
def dot_S16384x256_S256x256_S16384x256_1_0_0_1_n_n : DotDims S16384x256 S256x256 S16384x256 where
  lhsContracting := [1]
  rhsContracting := [0]
  lhsNonContracting := [0]
  rhsNonContracting := [1]
  lhsBatch := []
  rhsBatch := []
  wf := dot_S16384x256_S256x256_S16384x256_1_0_0_1_n_n_wf
def dot_S16384x256_S256x128_S16384x128_1_0_0_1_n_n : DotDims S16384x256 S256x128 S16384x128 where
  lhsContracting := [1]
  rhsContracting := [0]
  lhsNonContracting := [0]
  rhsNonContracting := [1]
  lhsBatch := []
  rhsBatch := []
  wf := dot_S16384x256_S256x128_S16384x128_1_0_0_1_n_n_wf

class Facts : Prop extends Facts₀ where

variable [Facts]
-- ==== Proof.EncoderNorm.lean ====
/-
  Layer normalisation of an encoder's output row, over the extended reals.

  One row of the encoder is three dense layers, the first two followed by a rectifier:
      h = W3ᵀ relu (W2ᵀ relu (W1ᵀ x + b1) + b2) + b3            (128 entries)
  and its normalisation subtracts the row's mean, divides by the root of the row's variance plus a positive
  constant, and applies a gain and a shift entry by entry.

  The two programs differ in one place only: one multiplies the centred entry by the reciprocal root,
  the other divides it by the root. On the extended reals these agree for EVERY centred entry (finite or
  not) as soon as the radicand is strictly positive: for a positive real radicand both are the product with
  `(√v)⁻¹`; for the radicand `⊤` both are the product with `0`. And the radicand is strictly positive:
  a variance is a sum of squares divided by 128, squares are nonnegative on the extended reals
  (`⊥ · ⊥ = ⊤`), and the added constant is a positive real. No finiteness of the inputs is used.
-/
import Idealize.ShloMosaic.PureOps.Ideal
import Idealize.ShloMosaic.PureOps.Ideal.Laws
import Idealize.ShloMosaic.Lib.ValueIdx

noncomputable section

open scoped BigOperators

namespace Cert.EncoderNorm

open Idealize.ShloMosaic Idealize.ShloMosaic.ValueIdx

/-! ## The three float constants of the two programs -/

/-- The row length `128.0`, as both programs spell it. -/
abbrev rowLen : EReal := Ideal.ofBits .f32 0x43000000#32
/-- The constant added to the variance (`f32(1e-5)`), as both programs spell it. -/
abbrev varEps : EReal := Ideal.ofBits .f32 0x3727C5AC#32
/-- The rectifier's threshold `+0.0`, as both programs spell it. -/
abbrev zeroWord : EReal := Ideal.ofBits .f32 0x00000000#32

/-- `128.0` denotes the real number 128. -/
theorem rowLen_eq : rowLen = ((128 : ℝ) : EReal) := by
  simp [rowLen, Ideal.ofBits, Ideal.ieee, -EReal.coe_mul]; norm_num

/-- The constant added to the variance denotes a strictly positive real. -/
theorem varEps_pos : 0 < varEps := by
  have h : varEps = (((10995116 : ℝ) * (2 : ℝ) ^ (-40 : ℤ) : ℝ) : EReal) := by
    simp [varEps, Ideal.ofBits, Ideal.ieee, -EReal.coe_mul]
  rw [h]
  exact EReal.coe_pos.mpr (by positivity)

/-! ## One row of the encoder -/

/-- One dense layer at output entry `j`: the inner product of the row with column `j` of the weights, plus the bias. -/
def dense {K J : Nat} (x : Fin K → EReal) (W : Fin K → Fin J → EReal) (b : Fin J → EReal) (j : Fin J) : EReal :=
  (∑ k : Fin K, x k * W k j) + b j

/-- The rectifier. -/
def relu (v : EReal) : EReal := max v zeroWord

/-- The encoder's output row: three dense layers, a rectifier after the first two. -/
def encode (x : Fin 512 → EReal) (W1 : Fin 512 → Fin 256 → EReal) (b1 : Fin 256 → EReal)
    (W2 : Fin 256 → Fin 256 → EReal) (b2 : Fin 256 → EReal) (W3 : Fin 256 → Fin 128 → EReal) (b3 : Fin 128 → EReal) :
    Fin 128 → EReal :=
  dense (fun k => relu (dense (fun k' => relu (dense x W1 b1 k')) W2 b2 k)) W3 b3

/-! ## Normalising a row -/

/-- The row's mean: its sum divided by the row length. -/
def mean (h : Fin 128 → EReal) : EReal := Ideal.div (∑ j : Fin 128, h j) rowLen
/-- The row with its mean subtracted. -/
def centred (h : Fin 128 → EReal) (j : Fin 128) : EReal := h j - mean h
/-- The row's variance: the mean of the squares of the centred entries. -/
def variance (h : Fin 128 → EReal) : EReal := Ideal.div (∑ j : Fin 128, centred h j * centred h j) rowLen

/-- Normalisation by the RECIPROCAL ROOT: centred entry times `rsqrt (variance + ε)`, then gain and shift. -/
def normMul (h g s : Fin 128 → EReal) (j : Fin 128) : EReal :=
  centred h j * Ideal.rsqrt (variance h + varEps) * g j + s j
/-- Normalisation by DIVISION by the root: centred entry over `sqrt (variance + ε)`, then gain and shift. -/
def normDiv (h g s : Fin 128 → EReal) (j : Fin 128) : EReal :=
  Ideal.div (centred h j) (Ideal.sqrt (variance h + varEps)) * g j + s j

/-- A square is nonnegative on the extended reals. -/
theorem mul_self_nonneg' (a : EReal) : 0 ≤ a * a :=
  EReal.mul_nonneg_iff.mpr ((le_total 0 a).elim (fun h => Or.inl ⟨h, h⟩) (fun h => Or.inr ⟨h, h⟩))

/-- A nonnegative extended real divided by the row length is nonnegative. -/
theorem div_rowLen_nonneg {a : EReal} (ha : 0 ≤ a) : 0 ≤ Ideal.div a rowLen := by
  rw [rowLen_eq, Ideal.div_coe (by norm_num : (128 : ℝ) ≠ 0)]
  exact EReal.mul_nonneg ha (EReal.coe_nonneg.mpr (by norm_num))

/-- The variance is nonnegative, whatever the row holds. -/
theorem variance_nonneg (h : Fin 128 → EReal) : 0 ≤ variance h :=
  div_rowLen_nonneg (Finset.sum_nonneg fun j _ => mul_self_nonneg' (centred h j))

/-- The radicand is strictly positive. -/
theorem radicand_pos (h : Fin 128 → EReal) : 0 < variance h + varEps :=
  Right.add_pos_of_nonneg_of_pos (variance_nonneg h) varEps_pos

/-- For a strictly positive radicand, multiplying by the reciprocal root is dividing by the root, for every
    extended real numerator. -/
theorem mul_rsqrt_eq_div_sqrt (x v : EReal) (hv : 0 < v) : x * Ideal.rsqrt v = Ideal.div x (Ideal.sqrt v) := by
  induction v using EReal.rec with
  | bot => exact absurd hv (not_lt.mpr bot_le)
  | top =>
    rw [Ideal.rsqrt_top, Ideal.sqrt_top]
    unfold Ideal.div
    rw [if_neg (by simp), EReal.inv_top]
  | coe r =>
    have hr : 0 < r := EReal.coe_pos.mp hv
    have hs : 0 < Real.sqrt r := Real.sqrt_pos.mpr hr
    rw [Ideal.rsqrt_coe, Ideal.sqrt_coe, if_neg (not_lt.mpr hr.le), if_neg (ne_of_gt hr), if_neg (not_lt.mpr hr.le)]
    unfold Ideal.div
    rw [if_neg (by exact_mod_cast (ne_of_gt hs)), EReal.coe_inv]

/-- The two normalisations are one function. -/
theorem normDiv_eq_normMul (h g s : Fin 128 → EReal) (j : Fin 128) : normDiv h g s j = normMul h g s j := by
  unfold normDiv normMul
  rw [mul_rsqrt_eq_div_sqrt _ _ (radicand_pos h)]

/-! ## The whole result array -/

/-- The result at `(R, j)`, as one function of the nine argument arrays: row `R` of the states encoded, then
    normalised with the reciprocal root, gain `g` and shift `s`. -/
def result (X : (⟨2, ![16384, 512]⟩ : Shape).Idx → EReal) (W1 : (⟨2, ![512, 256]⟩ : Shape).Idx → EReal)
    (b1 : (⟨1, ![256]⟩ : Shape).Idx → EReal) (W2 : (⟨2, ![256, 256]⟩ : Shape).Idx → EReal)
    (b2 : (⟨1, ![256]⟩ : Shape).Idx → EReal) (W3 : (⟨2, ![256, 128]⟩ : Shape).Idx → EReal)
    (b3 g s : (⟨1, ![128]⟩ : Shape).Idx → EReal) : (⟨2, ![16384, 128]⟩ : Shape).Idx → EReal := fun i =>
  normMul (encode (fun k => X (ix2 (i 0 : Fin 16384) k)) (fun k j => W1 (ix2 k j)) (fun j => b1 (ix1 j))
      (fun k j => W2 (ix2 k j)) (fun j => b2 (ix1 j)) (fun k j => W3 (ix2 k j)) (fun j => b3 (ix1 j)))
    (fun j => g (ix1 j)) (fun j => s (ix1 j)) (i 1 : Fin 128)

end Cert.EncoderNorm

end
-- ==== Proof.LibPlainMatmul.lean ====
import Idealize.ShloMosaic.PureOps.Ideal.Laws
import Idealize.ShloMosaic.Lib.ValueIdx

/-!
# A rows-by-columns matrix product into a zero accumulator, read at one entry

For the plain dimension numbers (`DotDims.plain M K N`: an `M × K` matrix times a `K × N` matrix, no batch axis) the
entry `(r, n)` of the product over the extended reals is `Σₖ lhs (r, k) · rhs (k, n)`.
-/

noncomputable section

namespace Idealize.ShloMosaic.PlainMatmul

open Idealize.ShloMosaic Idealize.ShloMosaic.ValueIdx

/-- The left operand's row coordinate at an output index is the output's row. -/
theorem lhs_plain_0 (M K N : Nat) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton_self _)]
  rfl

/-- The left operand's column coordinate is the contracted coordinate. -/
theorem lhs_plain_1 (M K N : Nat) (j : (⟨2, ![M, N]⟩ : Shape).Idx) (q : (DotDims.plain M K N).contr.Idx) :
    ((DotDims.plain M K N).lhsIdx j q 1).val = (q ⟨0, Nat.zero_lt_one⟩).val :=
  (DotDims.plain M K N).lhsIdx_val_of_single rfl j q

/-- The right operand's row coordinate is the contracted coordinate. -/
theorem rhs_plain_0 (M K N : Nat) (j : (⟨2, ![M, N]⟩ : Shape).Idx) (q : (DotDims.plain M K N).contr.Idx) :
    ((DotDims.plain M K N).rhsIdx j q 0).val = (q ⟨0, Nat.zero_lt_one⟩).val :=
  (DotDims.plain M K N).rhsIdx_val_of_single rfl j q

/-- The right operand's column coordinate at an output index is the output's column. -/
theorem rhs_plain_1 (M K N : Nat) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton_self _)]
  rfl

/-- The matrix unit's product with plain dimension numbers into the zero splat, at the entry `(r, n)`: the sum over the
    contracted coordinate `k` of `lhs (r, k) · rhs (k, n)`. -/
theorem matmul_plain_zero_apply (M K N : Nat) {φ₁ φ₂ : FTy} (prec : Option ContractPrecision)
    (lhs : FVec Ideal ⟨2, ![M, K]⟩ φ₁) (rhs : FVec Ideal ⟨2, ![K, N]⟩ φ₂) (r : Fin M) (n : Fin N) :
    FloatOps.matmul (DotDims.plain M K N) prec lhs rhs (constant ⟨2, ![M, N]⟩ .f32 0x00000000#32) (ix2 r n)
      = ∑ k : Fin K, lhs (ix2 r k) * rhs (ix2 k n) := by
  rw [Ideal.matmul_constant_zero_apply, ← Equiv.sum_comp (ValueIdx.contrEquiv1 (DotDims.plain M K N) K rfl rfl).symm]
  refine Finset.sum_congr rfl fun k _ => ?_
  have hk := ValueIdx.contrEquiv1_symm_val (DotDims.plain M K N) K rfl rfl k
  have el : (DotDims.plain M K N).lhsIdx (ix2 r n) ((ValueIdx.contrEquiv1 (DotDims.plain M K N) K rfl rfl).symm k)
      = ix2 r k := funext fun a => Fin.ext (by
    match a with
    | ⟨0, _⟩ => exact lhs_plain_0 M K N _ _
    | ⟨1, _⟩ => exact (lhs_plain_1 M K N _ _).trans hk)
  have er : (DotDims.plain M K N).rhsIdx (ix2 r n) ((ValueIdx.contrEquiv1 (DotDims.plain M K N) K rfl rfl).symm k)
      = ix2 k n := funext fun a => Fin.ext (by
    match a with
    | ⟨0, _⟩ => exact (rhs_plain_0 M K N _ _).trans hk
    | ⟨1, _⟩ => exact rhs_plain_1 M K N _ _)
  rw [el, er]

end Idealize.ShloMosaic.PlainMatmul

end
-- ==== Proof.LibRowReduce.lean ====
/-
  Row reductions of a rank-2 vector along its second axis, read at a row: the general facts a row-wise
  softmax, log-softmax or normalisation needs once both programs are down to one row.

  For a vector `x` of shape [R, D] and a row `r`:
  * the kernel's lane reduction with a maximum body is the fold of `max`, from the accumulator's value, over the
    row's entries `x (r, k)`, `k : Fin D` (`multiReduction_maximumf_row`);
  * the kernel's lane reduction with an add body is the sum of the row's entries (`multiReduction_add_row`);
  * the host's reduce with a maximum body is the same fold from the initial value (`hostReduce_maximumf_row`),
    and the host's sum is the initial value plus the sum of the row's entries (`hostReduceAdd_row`);
  * the f32 pattern of minus infinity is the bottom extended real (`ofBits_negInf_f32`), which `max` absorbs
    (`max_negInf_left`), so a maximum taken from minus infinity may be taken from it twice
    (`max_negInf_fold`).
  All at the ideal instance, where floats are extended reals.
-/
import Idealize.ShloMosaic.PureOps.Ideal.Laws
import Idealize.ShloMosaic.Lib.ValueIdx

noncomputable section

open scoped BigOperators

namespace Idealize.ShloMosaic.RowReduce

open Idealize.ShloMosaic Idealize.ShloMosaic.ValueIdx

variable {φ : FTy} {R D : Nat}

/-- Row `r` with column `k` put back on the reduced axis is the index (r, k). -/
theorem lift_row (h : (⟨2, ![R, D]⟩ : Shape).Reduces [1] (⟨1, ![R]⟩ : Shape)) (r : Fin R)
    (k : Fin ((⟨2, ![R, D]⟩ : Shape).size 1)) : h.lift (ix1 r) k = ix2 r (⟨k.val, k.isLt⟩ : Fin D) := by
  funext c; apply Fin.ext
  fin_cases c <;> rfl

/-- A lane reduction with a maximum body over the columns, at row `r`: the fold of `max` from the accumulator's
    value over that row's entries. -/
theorem multiReduction_maximumf_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.maximumf.neutral φ hφ) (r : Fin R) :
    multiReduction .maximumf [1] ⟨1, ![R]⟩ x acc h hφ hacc (ix1 r)
      = (Finset.univ : Finset (Fin D)).fold max (Ideal.ofBits φ acc) (fun k => x (ix2 r k)) := by
  rw [Ideal.multiReduction_maximumf_single]
  have hf : (x ∘ h.lift (ix1 r)) = fun k : Fin D => x (ix2 r k) := funext fun k => congrArg x (lift_row h r k)
  exact congrArg (fun f => Finset.fold max (Ideal.ofBits φ acc) f (Finset.univ : Finset (Fin D))) hf

/-- A lane reduction with an add body over the columns, at row `r`: the sum of that row's entries. -/
theorem multiReduction_add_row (x : FVec Ideal ⟨2, ![R, D]⟩ φ) (acc : BitVec φ.bits)
    (h : (⟨2, ![R, D]⟩ : Shape).Reduces [1] (⟨1, ![R]⟩ : Shape)) (hφ : FKind.Formats φ)
    (hacc : acc = FKind.add.neutral φ hφ) (r : Fin R) :
    multiReduction .add [1] ⟨1, ![R]⟩ x acc h hφ hacc (ix1 r) = ∑ k : Fin D, x (ix2 r k) := by
  rw [Ideal.multiReduction_add_single]
  exact Finset.sum_congr rfl fun k _ => congrArg x (lift_row h r k)

/-- The host's reduce with a maximum body over the columns, at row `r`: the fold of `max` from the initial
    value over that row's entries. -/
theorem hostReduce_maximumf_row {u : Shape} (x : FVec Ideal ⟨2, ![R, D]⟩ φ) (init : u.Idx → Ideal φ)
    (h' : (⟨2, ![R, D]⟩ : Shape).ReducesTo [1] (⟨1, ![R]⟩ : Shape))
    (h : (⟨2, ![R, D]⟩ : Shape).Reduces [1] (⟨1, ![R]⟩ : Shape)) (hu : 0 < u.numel) (r : Fin R) :
    Host.reduce FloatOps.maximumf x init h' hu (ix1 r)
      = (Finset.univ : Finset (Fin D)).fold max (init (Shape.Idx.first hu)) (fun k => x (ix2 r k)) := by
  rw [Host.reduce_eq_fold_single FloatOps.maximumf x init h' h hu]
  have hf : (x ∘ h.lift (ix1 r)) = fun k : Fin D => x (ix2 r k) := funext fun k => congrArg x (lift_row h r k)
  exact congrArg (fun f => Finset.fold max (init (Shape.Idx.first hu)) f (Finset.univ : Finset (Fin D))) hf

/-- The host's sum over the columns, at row `r`: the initial value plus the sum of that row's entries. -/
theorem hostReduceAdd_row (x : (⟨2, ![R, D]⟩ : Shape).Idx → EReal) (init : EReal)
    (h' : (⟨2, ![R, D]⟩ : Shape).ReducesTo [1] (⟨1, ![R]⟩ : Shape))
    (h : (⟨2, ![R, D]⟩ : Shape).Reduces [1] (⟨1, ![R]⟩ : Shape)) (r : Fin R) :
    Ideal.hostReduceAdd h' x init (ix1 r) = init + ∑ k : Fin D, x (ix2 r k) := by
  rw [Ideal.hostReduceAdd_single h' h]
  exact congrArg (init + ·) (Finset.sum_congr rfl fun k _ => congrArg x (lift_row h r k))

/-- The f32 pattern of minus infinity denotes the bottom extended real. -/
theorem ofBits_negInf_f32 : Ideal.ofBits .f32 0xFF800000#32 = (⊥ : EReal) := by
  simp [Ideal.ofBits, Ideal.ieee]

/-- Minus infinity is neutral for `max`. -/
theorem max_negInf_left (y : EReal) : max (Ideal.ofBits .f32 0xFF800000#32) y = y := by
  rw [ofBits_negInf_f32]; exact max_eq_right bot_le

/-- A maximum taken from minus infinity, joined once more with minus infinity, is itself. -/
theorem max_negInf_fold (f : Fin D → EReal) :
    max (Ideal.ofBits .f32 0xFF800000#32) ((Finset.univ : Finset (Fin D)).fold max (Ideal.ofBits .f32 0xFF800000#32) f)
      = (Finset.univ : Finset (Fin D)).fold max (Ideal.ofBits .f32 0xFF800000#32) f :=
  max_negInf_left _

end Idealize.ShloMosaic.RowReduce

end
-- ==== Proof.LibKeepdims.lean ====
/-
  A row reduction that keeps its axis (`jnp.sum(x, axis=-1, keepdims=True)`, a mean or a variance per row) lowers to
  a reduction to `[a]`, a shape cast to the column `[a, 1]`, and — when the row statistic meets the rows again — a
  broadcast of that column to `[a, b]`. Read at an index given by coordinates:
  • the column cast `[a] → [a, 1]` at `(i, u)` is the vector at `i` (the unit coordinate `u` carries nothing);
  • the column broadcast `[a, 1] → [a, b]` at `(p, c)` is the column at `(p, 0)`: every entry of row `p` sees the
    one statistic of row `p`.
-/
import Idealize.ShloMosaic.Lib.ValueLayout

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.KernelRow.lean ====
/-
  What the kernel's body computes for one block of 1024 rows, read entry by entry.

  The body multiplies the block of states by the first weight matrix, adds the bias row to every row and
  rectifies; does the same with the second weight matrix; multiplies by the third and adds its bias; then, row by
  row, subtracts the row's mean, and scales by the reciprocal root of the row's variance plus a constant, by the
  gain and by the shift. Each matrix product into a zero accumulator is, at an entry, the sum over the contracted
  coordinate; each bias is one row broadcast over all rows; each row statistic is a lane sum kept as a column and
  broadcast back over the row. So entry `(r, j)` of the block the body stores is the normalisation (by the
  reciprocal root) of the encoding of row `r` of the block of states, at `j`.
-/
import proofs.«175038_g87505663689473_cont_9to1_m_1202_2_alg».proof.Proof.Gen.KernelIdeal.Value
import proofs.«175038_g87505663689473_cont_9to1_m_1202_2_alg».proof.Proof.EncoderNorm
import proofs.«175038_g87505663689473_cont_9to1_m_1202_2_alg».proof.Proof.LibPlainMatmul
import proofs.«175038_g87505663689473_cont_9to1_m_1202_2_alg».proof.Proof.LibRowReduce
import proofs.«175038_g87505663689473_cont_9to1_m_1202_2_alg».proof.Proof.LibKeepdims
import Idealize.ShloMosaic.Lib.ValueLayout
import Idealize.ShloMosaic.Lib.Pipeline.Value

noncomputable section

open scoped BigOperators

namespace Cert.KernelIdeal.RowValue

open Cert.KernelIdeal Cert.KernelIdeal.Gen Idealize.ShloMosaic Idealize.ShloMosaic.ValueIdx Cert.EncoderNorm

/-! ## One dense layer of the body, at an entry -/

/-- A product of an `M × K` block with a `K × J` matrix into a zero accumulator, plus a bias row broadcast over the
    rows: entry `(r, j)` is the dense layer of row `r` at `j`. -/
theorem dense_entry {M K J : Nat} (d : DotDims ⟨2, ![M, K]⟩ ⟨2, ![K, J]⟩ ⟨2, ![M, J]⟩) (hd : d = DotDims.plain M K J)
    (lhs : FVec Ideal ⟨2, ![M, K]⟩ .f32) (rhs : FVec Ideal ⟨2, ![K, J]⟩ .f32) (bias : FVec Ideal ⟨2, ![1, J]⟩ .f32)
    (hs : (⟨2, ![1, J]⟩ : Shape).ShapeCasts ⟨2, ![1, J]⟩) (hb : (⟨2, ![1, J]⟩ : Shape).Broadcasts ⟨2, ![M, J]⟩)
    (r : Fin M) (j : Fin J) :
    addf (matmul d none lhs rhs (constant ⟨2, ![M, J]⟩ .f32 0x00000000#32))
        (broadcastTo ⟨2, ![M, J]⟩ (shapeCast ⟨2, ![1, J]⟩ bias hs) hb) (ix2 r j)
      = dense (fun k => lhs (ix2 r k)) (fun k j => rhs (ix2 k j)) (fun j => bias (ix2 (0 : Fin 1) j)) j := by
  subst hd
  show FloatOps.matmul (DotDims.plain M K J) none lhs rhs (constant ⟨2, ![M, J]⟩ .f32 0x00000000#32) (ix2 r j)
      + broadcastTo ⟨2, ![M, J]⟩ (shapeCast ⟨2, ![1, J]⟩ bias hs) hb (ix2 r j) = _
  rw [PlainMatmul.matmul_plain_zero_apply, broadcastTo_1b_ab_apply, shapeCast_self]
  rfl

/-- The same layer followed by the rectifier. -/
theorem dense_relu_entry {M K J : Nat} (d : DotDims ⟨2, ![M, K]⟩ ⟨2, ![K, J]⟩ ⟨2, ![M, J]⟩) (hd : d = DotDims.plain M K J)
    (lhs : FVec Ideal ⟨2, ![M, K]⟩ .f32) (rhs : FVec Ideal ⟨2, ![K, J]⟩ .f32) (bias : FVec Ideal ⟨2, ![1, J]⟩ .f32)
    (hs : (⟨2, ![1, J]⟩ : Shape).ShapeCasts ⟨2, ![1, J]⟩) (hb : (⟨2, ![1, J]⟩ : Shape).Broadcasts ⟨2, ![M, J]⟩)
    (r : Fin M) (j : Fin J) :
    maximumf (addf (matmul d none lhs rhs (constant ⟨2, ![M, J]⟩ .f32 0x00000000#32))
        (broadcastTo ⟨2, ![M, J]⟩ (shapeCast ⟨2, ![1, J]⟩ bias hs) hb))
        (broadcast ⟨2, ![M, J]⟩ (Scalar.ofBits (F := Ideal) .f32 0x00000000#32)) (ix2 r j)
      = relu (dense (fun k => lhs (ix2 r k)) (fun k j => rhs (ix2 k j)) (fun j => bias (ix2 (0 : Fin 1) j)) j) := by
  show max (addf (matmul d none lhs rhs (constant ⟨2, ![M, J]⟩ .f32 0x00000000#32))
        (broadcastTo ⟨2, ![M, J]⟩ (shapeCast ⟨2, ![1, J]⟩ bias hs) hb) (ix2 r j)) zeroWord = _
  rw [dense_entry d hd lhs rhs bias hs hb r j]
  rfl

/-! ## The encoder's output for a block, and the body's stored value, at an entry -/

section Block

variable (P0 : FVec Ideal S1024x512 .f32) (P1 : FVec Ideal S512x256 .f32) (P2 : FVec Ideal S1x256 .f32)
  (P3 : FVec Ideal S256x256 .f32) (P4 : FVec Ideal S1x256 .f32) (P5 : FVec Ideal S256x128 .f32) (P6 : FVec Ideal S1x128 .f32)

/-- The body's three layers applied to a block of states `P0` (weights `P1`, `P3`, `P5`; bias rows `P2`, `P4`, `P6`): the
    block of encoder outputs, before any row statistic is taken. -/
def blockEncoded : FVec Ideal S1024x128 .f32 :=
  addf (matmul dot_S1024x256_S256x128_S1024x128_1_0_0_1_n_n none
      (maximumf (addf (matmul dot_S1024x256_S256x256_S1024x256_1_0_0_1_n_n none
          (maximumf (addf (matmul dot_S1024x512_S512x256_S1024x256_1_0_0_1_n_n none P0 P1 (constant S1024x256 .f32 0x00000000#32))
              (broadcastTo S1024x256 (shapeCast S1x256 P2 shapeCasts_S1x256_S1x256) broadcasts_S1x256_S1024x256))
            (broadcast S1024x256 (Scalar.ofBits (F := Ideal) .f32 0x00000000#32)))
          P3 (constant S1024x256 .f32 0x00000000#32))
          (broadcastTo S1024x256 (shapeCast S1x256 P4 shapeCasts_S1x256_S1x256) broadcasts_S1x256_S1024x256))
        (broadcast S1024x256 (Scalar.ofBits (F := Ideal) .f32 0x00000000#32)))
      P5 (constant S1024x128 .f32 0x00000000#32))
    (broadcastTo S1024x128 (shapeCast S1x128 P6 shapeCasts_S1x128_S1x128) broadcasts_S1x128_S1024x128)

/-- Row `r` of the block, encoded: the row of states through the three layers. -/
abbrev rowEncoded (r : Fin 1024) : Fin 128 → EReal :=
  encode (fun k => P0 (ix2 r k)) (fun k j => P1 (ix2 k j)) (fun j => P2 (ix2 (0 : Fin 1) j))
    (fun k j => P3 (ix2 k j)) (fun j => P4 (ix2 (0 : Fin 1) j)) (fun k j => P5 (ix2 k j)) (fun j => P6 (ix2 (0 : Fin 1) j))

/-- Entry `(r, j)` of the block of encoder outputs is entry `j` of row `r` encoded: each layer reads only row `r` of
    the layer before. -/
theorem encoded_entry (r : Fin 1024) (j : Fin 128) :
    blockEncoded P0 P1 P2 P3 P4 P5 P6 (ix2 r j) = rowEncoded P0 P1 P2 P3 P4 P5 P6 r j := by
  unfold blockEncoded rowEncoded encode
  refine (dense_entry dot_S1024x256_S256x128_S1024x128_1_0_0_1_n_n rfl _ _ _ _ _ r j).trans ?_
  congr 1; funext k
  refine (dense_relu_entry dot_S1024x256_S256x256_S1024x256_1_0_0_1_n_n rfl _ _ _ _ _ r k).trans ?_
  congr 2; funext k'
  exact dense_relu_entry dot_S1024x512_S512x256_S1024x256_1_0_0_1_n_n rfl _ _ _ _ _ r k'

/-- A whole row of the block of encoder outputs is the row encoded. -/
theorem encoded_row (r : Fin 1024) :
    (fun j : Fin 128 => blockEncoded P0 P1 P2 P3 P4 P5 P6 (ix2 r j)) = rowEncoded P0 P1 P2 P3 P4 P5 P6 r :=
  funext fun j => encoded_entry P0 P1 P2 P3 P4 P5 P6 r j

/-- The body's centred block at `(r, j)`: the encoder output minus its row's mean — the lane sum of row `r`, kept as a
    column, divided by the row length and broadcast back over the row. -/
theorem centred_entry (r : Fin 1024) (j : Fin 128) :
    k0_pay2 (F := Ideal) P0 P1 P2 P3 P4 P5 P6 (ix2 r j) = centred (rowEncoded P0 P1 P2 P3 P4 P5 P6 r) j := by
  show blockEncoded P0 P1 P2 P3 P4 P5 P6 (ix2 r j)
      - (broadcastTo S1024x128 (divf (shapeCast S1024x1 (multiReduction .add [1] S1024 (blockEncoded P0 P1 P2 P3 P4 P5 P6)
            0x00000000#32 reduces_S1024x128_S1024 (.inl rfl) rfl) shapeCasts_S1024_S1024x1)
          (broadcast S1024x1 (Scalar.ofBits (F := Ideal) .f32 0x43000000#32))) broadcasts_S1024x1_S1024x128) (ix2 r j) = _
  rw [Cert.Keepdims.broadcastTo_a1_ab_apply]
  show _ - Ideal.div (shapeCast S1024x1 (multiReduction .add [1] S1024 (blockEncoded P0 P1 P2 P3 P4 P5 P6)
            0x00000000#32 reduces_S1024x128_S1024 (.inl rfl) rfl) shapeCasts_S1024_S1024x1 (ix2 r (0 : Fin 1))) rowLen = _
  rw [Cert.Keepdims.shapeCast_a_a1_apply,
    RowReduce.multiReduction_add_row (R := 1024) (D := 128) _ 0x00000000#32 reduces_S1024x128_S1024 (.inl rfl) rfl r,
    encoded_entry, encoded_row]
  rfl

/-- The lane sum of the squared centred block at row `r`: the sum of the squares of the row's centred entries. -/
theorem sumsq_entry (r : Fin 1024) :
    multiReduction .add [1] S1024 (mulf (k0_pay2 (F := Ideal) P0 P1 P2 P3 P4 P5 P6) (k0_pay2 (F := Ideal) P0 P1 P2 P3 P4 P5 P6))
        0x00000000#32 reduces_S1024x128_S1024 (.inl rfl) rfl (ix1 r)
      = ∑ j : Fin 128, centred (rowEncoded P0 P1 P2 P3 P4 P5 P6 r) j * centred (rowEncoded P0 P1 P2 P3 P4 P5 P6 r) j := by
  rw [RowReduce.multiReduction_add_row (R := 1024) (D := 128) _ 0x00000000#32 reduces_S1024x128_S1024 (.inl rfl) rfl r]
  refine Finset.sum_congr rfl fun j _ => ?_
  show k0_pay2 (F := Ideal) P0 P1 P2 P3 P4 P5 P6 (ix2 r j) * k0_pay2 (F := Ideal) P0 P1 P2 P3 P4 P5 P6 (ix2 r j) = _
  rw [centred_entry]

/-- THE BLOCK THE BODY STORES, at `(r, j)` (the generated one-function form `E9` of the store's value): the encoding of
    row `r` of the block of states, normalised by the reciprocal root with the gain row `P7` and the shift row `P8`. -/
theorem stored_entry (P7 P8 : FVec Ideal S1x128 .f32) (r : Fin 1024) (j : Fin 128) :
    Cert.KernelIdeal.Value.E9 (F := Ideal) P0 P1 P2 P3 P4 P5 P6 P7 P8 (ix2 r j)
      = normMul (rowEncoded P0 P1 P2 P3 P4 P5 P6 r) (fun j => P7 (ix2 (0 : Fin 1) j)) (fun j => P8 (ix2 (0 : Fin 1) j)) j := by
  have i0 : Cert.KernelIdeal.Value.ix9_0 (ix2 r j : S1024x128.Idx) = ix2 r j :=
    funext fun a => Fin.ext (by match a with | ⟨0, _⟩ => rfl | ⟨1, _⟩ => rfl)
  have i1 : Cert.KernelIdeal.Value.ix9_1 (ix2 r j : S1024x128.Idx) = ix1 r :=
    funext fun a => Fin.ext (by match a with | ⟨0, _⟩ => rfl)
  have i3 : Cert.KernelIdeal.Value.ix9_3 (ix2 r j : S1024x128.Idx) = ix2 (0 : Fin 1) j :=
    funext fun a => Fin.ext (by match a with | ⟨0, _⟩ => rfl | ⟨1, _⟩ => rfl)
  have i4 : Cert.KernelIdeal.Value.ix9_4 (ix2 r j : S1024x128.Idx) = ix2 (0 : Fin 1) j :=
    funext fun a => Fin.ext (by match a with | ⟨0, _⟩ => rfl | ⟨1, _⟩ => rfl)
  show k0_pay2 (F := Ideal) P0 P1 P2 P3 P4 P5 P6 (Cert.KernelIdeal.Value.ix9_0 (ix2 r j))
        * Ideal.rsqrt (Ideal.div (multiReduction .add [1] S1024
            (mulf (k0_pay2 (F := Ideal) P0 P1 P2 P3 P4 P5 P6) (k0_pay2 (F := Ideal) P0 P1 P2 P3 P4 P5 P6))
            0x00000000#32 reduces_S1024x128_S1024 (.inl rfl) rfl (Cert.KernelIdeal.Value.ix9_1 (ix2 r j))) rowLen + varEps)
        * P7 (Cert.KernelIdeal.Value.ix9_3 (ix2 r j)) + P8 (Cert.KernelIdeal.Value.ix9_4 (ix2 r j)) = _
  rw [i0, i1, i3, i4, centred_entry, sumsq_entry]
  rfl

/-- THE STORED BLOCK AGAINST THE WHOLE-ARRAY SPECIFICATION. If row `r` of the block of states is row `I 0` of the array of
    states, the weight blocks are the weight arrays, and the bias, gain and shift rows are the `[1, n]` forms of the
    vectors, then the body's stored value at `(r, j)` is the specification at the array index `I = (I 0, j)`. -/
theorem stored_eq_result (P7 P8 : FVec Ideal S1x128 .f32)
    (A0 : FVec Ideal S16384x512 .f32) (A1 : FVec Ideal S512x256 .f32) (A2 : FVec Ideal S256 .f32)
    (A3 : FVec Ideal S256x256 .f32) (A4 : FVec Ideal S256 .f32) (A5 : FVec Ideal S256x128 .f32) (A6 A7 A8 : FVec Ideal S128 .f32)
    (r : Fin 1024) (j : Fin 128) (I : S16384x128.Idx) (hj : (I 1 : Fin 128) = j)
    (h0 : ∀ k : Fin 512, P0 (ix2 r k) = A0 (ix2 (I 0 : Fin 16384) k))
    (h1 : ∀ (k : Fin 512) (n : Fin 256), P1 (ix2 k n) = A1 (ix2 k n))
    (h2 : ∀ n : Fin 256, P2 (ix2 (0 : Fin 1) n) = A2 (ix1 n))
    (h3 : ∀ (k : Fin 256) (n : Fin 256), P3 (ix2 k n) = A3 (ix2 k n))
    (h4 : ∀ n : Fin 256, P4 (ix2 (0 : Fin 1) n) = A4 (ix1 n))
    (h5 : ∀ (k : Fin 256) (n : Fin 128), P5 (ix2 k n) = A5 (ix2 k n))
    (h6 : ∀ n : Fin 128, P6 (ix2 (0 : Fin 1) n) = A6 (ix1 n))
    (h7 : ∀ n : Fin 128, P7 (ix2 (0 : Fin 1) n) = A7 (ix1 n))
    (h8 : ∀ n : Fin 128, P8 (ix2 (0 : Fin 1) n) = A8 (ix1 n)) :
    Cert.KernelIdeal.Value.E9 (F := Ideal) P0 P1 P2 P3 P4 P5 P6 P7 P8 (ix2 r j) = result A0 A1 A2 A3 A4 A5 A6 A7 A8 I := by
  rw [stored_entry]
  unfold result rowEncoded
  simp only [hj, h0, h1, h2, h3, h4, h5, h6, h7, h8]

end Block

end Cert.KernelIdeal.RowValue

end
-- ==== Proof.KernelArray.lean ====
/-
  From the blocks the kernel writes back to the whole result array.

  The grid has 16 points. At point `t` the window over the states stages rows `1024·t … 1024·t + 1023`; the
  windows over the three weight matrices and over the five rows the host formed from the bias, gain and shift
  vectors stage their whole arrays at every point; and the output window writes rows `1024·t … 1024·t + 1023`
  of the result. The body's stored block at `(r, j)` is the row-wise specification of row `r` of the staged states,
  so what point `t` writes back is block `t` of the specification of the argument arrays; the sixteen blocks tile
  the `16384 × 128` result, which therefore ends holding the specification everywhere.
-/
import proofs.«175038_g87505663689473_cont_9to1_m_1202_2_alg».proof.Proof.KernelRow
import Idealize.ShloMosaic.Lib.StableHlo.Run

set_option maxRecDepth 16384

noncomputable section

namespace Cert.KernelIdeal.ArrayValue

open Cert.KernelIdeal Cert.KernelIdeal.Gen Idealize.ShloMosaic Idealize.ShloMosaic.TcCoe Idealize.SL.Sem
open Idealize.ShloMosaic.ValueIdx Idealize.ShloMosaic.StableHlo Cert.EncoderNorm
open Idealize.ShloMosaic.Pipeline (Dat)

variable (m : (ℓ : Loc nD τ sig) → Buf (Elt Ideal) ℓ) (ρ : Dev nD → PrngReg)

/-- A block that starts at the origin. -/
theorem origin : (![0, 0] : Fin 2 → Nat) = fun _ => 0 := funext fun a => by fin_cases a <;> rfl

/-! ## The index maps, decided over the sixteen points -/

/-- The states' window moves with the output's along the rows; every other window stays at block `(0, 0)`; the
    output's row-block index is at most 15 and its column-block index is 0. -/
theorem idx_facts : ∀ t : Fin cfg0.N,
    win0_0.index t (0 : Fin 2) = win0_9.index t (0 : Fin 2) ∧ win0_0.index t (1 : Fin 2) = 0
    ∧ win0_9.index t (0 : Fin 2) ≤ 15 ∧ win0_9.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0 :=
  (by decide +kernel : ∀ t : Fin grid0.N, _)

/-- Every row block of the result is some point's. -/
theorem idx_onto : ∀ q : Fin 16, ∃ t : Fin cfg0.N, win0_9.index t (0 : Fin 2) = q.val :=
  (by decide +kernel : ∀ q : Fin 16, ∃ t : Fin grid0.N, win0_9.index t (0 : Fin 2) = q.val)

/-! ## The five rows the host forms before the call -/

/-- The host's reshape of argument 2 to one row: at `(0, n)` it holds the vector's entry `n`. -/
theorem row_main_v0 (c : Dev nD) (n : Fin 256) :
    V m c main_v0 (ix2 (0 : Fin 1) n) = m ((c : Thread nD τ).loc main_arg2) (ix1 n) := by
  have e : (V m c main_v0 : S1x256.Idx → EReal)
      = shapeCast S1x256 (m ((c : Thread nD τ).loc main_arg2)) shapeCasts_S256_S1x256 := by
    dsimp only [V, hostOps0]; after_results; rfl
  rw [e]
  exact shapeCast_a_1a_apply _ _ 0 n

/-- The host's reshape of argument 4 to one row: at `(0, n)` it holds the vector's entry `n`. -/
theorem row_main_v1 (c : Dev nD) (n : Fin 256) :
    V m c main_v1 (ix2 (0 : Fin 1) n) = m ((c : Thread nD τ).loc main_arg4) (ix1 n) := by
  have e : (V m c main_v1 : S1x256.Idx → EReal)
      = shapeCast S1x256 (m ((c : Thread nD τ).loc main_arg4)) shapeCasts_S256_S1x256 := by
    dsimp only [V, hostOps0]; after_results; rfl
  rw [e]
  exact shapeCast_a_1a_apply _ _ 0 n

/-- The host's reshape of argument 6 to one row: at `(0, n)` it holds the vector's entry `n`. -/
theorem row_main_v2 (c : Dev nD) (n : Fin 128) :
    V m c main_v2 (ix2 (0 : Fin 1) n) = m ((c : Thread nD τ).loc main_arg6) (ix1 n) := by
  have e : (V m c main_v2 : S1x128.Idx → EReal)
      = shapeCast S1x128 (m ((c : Thread nD τ).loc main_arg6)) shapeCasts_S128_S1x128 := by
    dsimp only [V, hostOps0]; after_results; rfl
  rw [e]
  exact shapeCast_a_1a_apply _ _ 0 n

/-- The host's reshape of argument 7 to one row: at `(0, n)` it holds the vector's entry `n`. -/
theorem row_main_v3 (c : Dev nD) (n : Fin 128) :
    V m c main_v3 (ix2 (0 : Fin 1) n) = m ((c : Thread nD τ).loc main_arg7) (ix1 n) := by
  have e : (V m c main_v3 : S1x128.Idx → EReal)
      = shapeCast S1x128 (m ((c : Thread nD τ).loc main_arg7)) shapeCasts_S128_S1x128 := by
    dsimp only [V, hostOps0]; after_results; rfl
  rw [e]
  exact shapeCast_a_1a_apply _ _ 0 n

/-- The host's reshape of argument 8 to one row: at `(0, n)` it holds the vector's entry `n`. -/
theorem row_main_v4 (c : Dev nD) (n : Fin 128) :
    V m c main_v4 (ix2 (0 : Fin 1) n) = m ((c : Thread nD τ).loc main_arg8) (ix1 n) := by
  have e : (V m c main_v4 : S1x128.Idx → EReal)
      = shapeCast S1x128 (m ((c : Thread nD τ).loc main_arg8)) shapeCasts_S128_S1x128 := by
    dsimp only [V, hostOps0]; after_results; rfl
  rw [e]
  exact shapeCast_a_1a_apply _ _ 0 n

/-! ## The input windows' blocks, read at an entry -/

/-- The array index under entry `(r, j)` of the output's block at point `t`. -/
abbrev under (t : Fin cfg0.N) (r : Fin 1024) (j : Fin 128) : S16384x128.Idx := ((cfg0.win 9).blk t).view.emb (ix2 r j)

/-- Its column is `j`. -/
theorem under_col (t : Fin cfg0.N) (r : Fin 1024) (j : Fin 128) : (under t r j 1 : Fin 128) = j := by
  have e := idx_facts t
  apply Fin.ext
  show win0_9.index t (1 : Fin 2) * 128 + 1 * j.val = j.val
  omega

/-- Row `r` of the block of states staged at point `t` is the row of the array of states under the output's
    entry `(r, j)`: the two windows move together along the rows. -/
theorem block0 (c : Dev nD) (t : Fin cfg0.N) (r : Fin 1024) (j : Fin 128) (k : Fin 512) :
    iblk m c 0 t (ix2 r k) = V m c main_arg0 (ix2 (under t r j 0 : Fin 16384) k) := by
  have e := idx_facts t
  show V m c main_arg0 (((cfg0.win 0).blk t).view.emb (ix2 r k)) = V m c main_arg0 (ix2 (under t r j 0 : Fin 16384) k)
  congr 1; funext a; apply Fin.ext
  match a with
  | ⟨0, _⟩ => show win0_0.index t (0 : Fin 2) * 1024 + 1 * r.val = win0_9.index t (0 : Fin 2) * 1024 + 1 * r.val; omega
  | ⟨1, _⟩ => show win0_0.index t (1 : Fin 2) * 512 + 1 * k.val = k.val; omega

/-- Window 1 stages its whole array at every point: its block index is `(0, 0)`. -/
theorem block1 (c : Dev nD) (t : Fin cfg0.N) (p : Fin 512) (q : Fin 256) :
    iblk m c 1 t (ix2 p q) = V m c main_arg1 (ix2 p q) := by
  have e := idx_facts t
  show V m c main_arg1 (((cfg0.win 1).blk t).view.emb (ix2 p q)) = V m c main_arg1 (ix2 p q)
  congr 1; funext a; apply Fin.ext
  match a with
  | ⟨0, _⟩ => show win0_1.index t (0 : Fin 2) * 512 + 1 * p.val = p.val; omega
  | ⟨1, _⟩ => show win0_1.index t (1 : Fin 2) * 256 + 1 * q.val = q.val; omega

/-- Window 2 stages its whole array at every point: its block index is `(0, 0)`. -/
theorem block2 (c : Dev nD) (t : Fin cfg0.N) (p : Fin 1) (q : Fin 256) :
    iblk m c 2 t (ix2 p q) = V m c main_v0 (ix2 p q) := by
  have e := idx_facts t
  show V m c main_v0 (((cfg0.win 2).blk t).view.emb (ix2 p q)) = V m c main_v0 (ix2 p q)
  congr 1; funext a; apply Fin.ext
  match a with
  | ⟨0, _⟩ => show win0_2.index t (0 : Fin 2) * 1 + 1 * p.val = p.val; omega
  | ⟨1, _⟩ => show win0_2.index t (1 : Fin 2) * 256 + 1 * q.val = q.val; omega

/-- Window 3 stages its whole array at every point: its block index is `(0, 0)`. -/
theorem block3 (c : Dev nD) (t : Fin cfg0.N) (p : Fin 256) (q : Fin 256) :
    iblk m c 3 t (ix2 p q) = V m c main_arg3 (ix2 p q) := by
  have e := idx_facts t
  show V m c main_arg3 (((cfg0.win 3).blk t).view.emb (ix2 p q)) = V m c main_arg3 (ix2 p q)
  congr 1; funext a; apply Fin.ext
  match a with
  | ⟨0, _⟩ => show win0_3.index t (0 : Fin 2) * 256 + 1 * p.val = p.val; omega
  | ⟨1, _⟩ => show win0_3.index t (1 : Fin 2) * 256 + 1 * q.val = q.val; omega

/-- Window 4 stages its whole array at every point: its block index is `(0, 0)`. -/
theorem block4 (c : Dev nD) (t : Fin cfg0.N) (p : Fin 1) (q : Fin 256) :
    iblk m c 4 t (ix2 p q) = V m c main_v1 (ix2 p q) := by
  have e := idx_facts t
  show V m c main_v1 (((cfg0.win 4).blk t).view.emb (ix2 p q)) = V m c main_v1 (ix2 p q)
  congr 1; funext a; apply Fin.ext
  match a with
  | ⟨0, _⟩ => show win0_4.index t (0 : Fin 2) * 1 + 1 * p.val = p.val; omega
  | ⟨1, _⟩ => show win0_4.index t (1 : Fin 2) * 256 + 1 * q.val = q.val; omega

/-- Window 5 stages its whole array at every point: its block index is `(0, 0)`. -/
theorem block5 (c : Dev nD) (t : Fin cfg0.N) (p : Fin 256) (q : Fin 128) :
    iblk m c 5 t (ix2 p q) = V m c main_arg5 (ix2 p q) := by
  have e := idx_facts t
  show V m c main_arg5 (((cfg0.win 5).blk t).view.emb (ix2 p q)) = V m c main_arg5 (ix2 p q)
  congr 1; funext a; apply Fin.ext
  match a with
  | ⟨0, _⟩ => show win0_5.index t (0 : Fin 2) * 256 + 1 * p.val = p.val; omega
  | ⟨1, _⟩ => show win0_5.index t (1 : Fin 2) * 128 + 1 * q.val = q.val; omega

/-- Window 6 stages its whole array at every point: its block index is `(0, 0)`. -/
theorem block6 (c : Dev nD) (t : Fin cfg0.N) (p : Fin 1) (q : Fin 128) :
    iblk m c 6 t (ix2 p q) = V m c main_v2 (ix2 p q) := by
  have e := idx_facts t
  show V m c main_v2 (((cfg0.win 6).blk t).view.emb (ix2 p q)) = V m c main_v2 (ix2 p q)
  congr 1; funext a; apply Fin.ext
  match a with
  | ⟨0, _⟩ => show win0_6.index t (0 : Fin 2) * 1 + 1 * p.val = p.val; omega
  | ⟨1, _⟩ => show win0_6.index t (1 : Fin 2) * 128 + 1 * q.val = q.val; omega

/-- Window 7 stages its whole array at every point: its block index is `(0, 0)`. -/
theorem block7 (c : Dev nD) (t : Fin cfg0.N) (p : Fin 1) (q : Fin 128) :
    iblk m c 7 t (ix2 p q) = V m c main_v3 (ix2 p q) := by
  have e := idx_facts t
  show V m c main_v3 (((cfg0.win 7).blk t).view.emb (ix2 p q)) = V m c main_v3 (ix2 p q)
  congr 1; funext a; apply Fin.ext
  match a with
  | ⟨0, _⟩ => show win0_7.index t (0 : Fin 2) * 1 + 1 * p.val = p.val; omega
  | ⟨1, _⟩ => show win0_7.index t (1 : Fin 2) * 128 + 1 * q.val = q.val; omega

/-- Window 8 stages its whole array at every point: its block index is `(0, 0)`. -/
theorem block8 (c : Dev nD) (t : Fin cfg0.N) (p : Fin 1) (q : Fin 128) :
    iblk m c 8 t (ix2 p q) = V m c main_v4 (ix2 p q) := by
  have e := idx_facts t
  show V m c main_v4 (((cfg0.win 8).blk t).view.emb (ix2 p q)) = V m c main_v4 (ix2 p q)
  congr 1; funext a; apply Fin.ext
  match a with
  | ⟨0, _⟩ => show win0_8.index t (0 : Fin 2) * 1 + 1 * p.val = p.val; omega
  | ⟨1, _⟩ => show win0_8.index t (1 : Fin 2) * 128 + 1 * q.val = q.val; omega

/-! ## What a point writes back, the cover, and the whole array -/

/-- WHAT POINT `t` WRITES BACK is block `t` of the specification of the argument arrays. -/
theorem flushed_eq (c : Dev nD) (t : Fin cfg0.N) :
    (dats m 0 c).flushed 9 t = ((cfg0.win 9).blk t).view.read (Elt Ideal) (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) := by
  rw [Cert.KernelIdeal.Value.flushed9]
  funext y
  obtain ⟨r, j, rfl⟩ : ∃ (r : Fin 1024) (j : Fin 128), y = ix2 r j := ⟨y 0, y 1, eq_ix2 y⟩
  show out0_9 (iblk m c 0 t) (iblk m c 1 t) (iblk m c 2 t) (iblk m c 3 t) (iblk m c 4 t) (iblk m c 5 t) (iblk m c 6 t)
      (iblk m c 7 t) (iblk m c 8 t) (ix2 r j) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (under t r j)
  unfold out0_9
  refine (Cert.KernelIdeal.Value.canon9_eq (F := Ideal) (View.ld (iblk m c 0 t) r0_0) (View.ld (iblk m c 1 t) r0_1)
    (View.ld (iblk m c 2 t) r0_2) (View.ld (iblk m c 3 t) r0_3) (View.ld (iblk m c 4 t) r0_2) (View.ld (iblk m c 5 t) r0_4)
    (View.ld (iblk m c 6 t) r0_5) (View.ld (iblk m c 7 t) r0_5) (View.ld (iblk m c 8 t) r0_5) (ix2 r j)).trans ?_
  simp only [View.ld_unit_zero (S := S1024x512) origin, View.ld_unit_zero (S := S512x256) origin,
    View.ld_unit_zero (S := S1x256) origin, View.ld_unit_zero (S := S256x256) origin,
    View.ld_unit_zero (S := S256x128) origin, View.ld_unit_zero (S := S1x128) origin]
  exact Cert.KernelIdeal.RowValue.stored_eq_result (iblk m c 0 t) (iblk m c 1 t) (iblk m c 2 t) (iblk m c 3 t) (iblk m c 4 t)
    (iblk m c 5 t) (iblk m c 6 t) (iblk m c 7 t) (iblk m c 8 t)
    (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) r j (under t r j) (under_col t r j)
    (fun k => (block0 m c t r j k).trans (congrFun (V_main_arg0 m c) _))
    (fun k n => (block1 m c t k n).trans (congrFun (V_main_arg1 m c) _))
    (fun n => (block2 m c t 0 n).trans (row_main_v0 m c n))
    (fun k n => (block3 m c t k n).trans (congrFun (V_main_arg3 m c) _))
    (fun n => (block4 m c t 0 n).trans (row_main_v1 m c n))
    (fun k n => (block5 m c t k n).trans (congrFun (V_main_arg5 m c) _))
    (fun n => (block6 m c t 0 n).trans (row_main_v2 m c n))
    (fun n => (block7 m c t 0 n).trans (row_main_v3 m c n))
    (fun n => (block8 m c t 0 n).trans (row_main_v4 m c n))

/-- An index of the result is in point `t`'s block iff each coordinate is in the block's range on its axis. -/
theorem mem_block (t : Fin cfg0.N) (i : S16384x128.Idx) :
    i ∈ ((cfg0.win 9).blk t).view.set ↔ ∀ a : Fin 2, win0_9.index t a * S1024x128.size a ≤ (i a).val
      ∧ (i a).val < win0_9.index t a * S1024x128.size a + S1024x128.size a := by
  show i ∈ ((View.whole main_v5).slice (win0_9.rect t)).set ↔ _
  rw [View.set_slice_whole, Rect.mem_set_unit]
  exact Iff.rfl

/-- The sixteen blocks cover the result: row `R` is in the block of the point whose row-block index is `R / 1024`. -/
theorem cover (i : S16384x128.Idx) : ∃ t : Fin cfg0.N, (cfg0.win 9).flush t = true ∧ i ∈ ((cfg0.win 9).blk t).view.set := by
  have hi0 : (i 0).val < 16384 := (i 0).isLt
  have hi1 : (i 1).val < 128 := (i 1).isLt
  obtain ⟨t, ht⟩ := idx_onto ⟨(i 0).val / 1024, by omega⟩
  have q0 : win0_9.index t (0 : Fin 2) = (i 0).val / 1024 := ht
  have e := idx_facts t
  refine ⟨t, flush0_9 t, ?_⟩
  rw [mem_block]
  intro a
  match a with
  | ⟨0, _⟩ => show win0_9.index t (0 : Fin 2) * 1024 ≤ (i 0).val ∧ (i 0).val < win0_9.index t (0 : Fin 2) * 1024 + 1024; omega
  | ⟨1, _⟩ => show win0_9.index t (1 : Fin 2) * 128 ≤ (i 1).val ∧ (i 1).val < win0_9.index t (1 : Fin 2) * 128 + 128; omega

/-- THE RESULT ARRAY after the run is the specification of the argument arrays. -/
theorem final (c : Dev nD) : (dats m 0 c).arrAt 9 cfg0.N = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  (dats m 0 c).arrAt_eq_of_cover 9 (result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))) (fun t _ => flushed_eq m c t) cover

/-- The kernel's run: every weakly fair execution terminates with the result array at the specification of the
    arguments, the arguments unchanged. -/
theorem run : θ_run defs (onTc (τ := τ) (main (F := Ideal))) ⟨m, fun _ => 0, ρ⟩ fun r => ∀ c : Dev nD,
      r.2.mem ((c : Thread nD τ).loc main_v5) = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun r h c => ⟨(h c).1.trans (final m c), (h c).2⟩)
    (Cert.KernelIdeal.Value.run_blocks m ρ)

end Cert.KernelIdeal.ArrayValue

end
-- ==== Proof.ReferenceRow.lean ====
/-
  What the reference computes, read entry by entry: the same row-wise function as the kernel's, except that it
  divides the centred entry by the root where the kernel multiplies by the reciprocal root.

  The reference works on the whole `16384 × 512` array of states at once. Each of its matrix products is, at an
  entry, the sum over the contracted coordinate; each bias is broadcast over all rows; each row statistic (the mean,
  the variance) is a sum along the row from the initial value `+0.0`, kept as a column and broadcast back. So entry
  `(R, j)` of its result depends on row `R` of the states only: it is the normalisation (by division by the root) of
  that row's encoding. The two normalisations are one function (the radicand is strictly positive), which makes the
  reference's result the specification's.
-/
import proofs.«175038_g87505663689473_cont_9to1_m_1202_2_alg».proof.Proof.Gen.ReferenceIdeal.Read
import proofs.«175038_g87505663689473_cont_9to1_m_1202_2_alg».proof.Proof.EncoderNorm

noncomputable section

open scoped BigOperators

namespace Cert.ReferenceIdeal.RowValue

open Cert.ReferenceIdeal Cert.ReferenceIdeal.Read Idealize.ShloMosaic Idealize.ShloMosaic.ValueIdx Cert.EncoderNorm

variable (x0 : (⟨S16384x512, .f32⟩ : BufTy).Contents (Elt Ideal)) (x1 : (⟨S512x256, .f32⟩ : BufTy).Contents (Elt Ideal))
  (x2 : (⟨S256, .f32⟩ : BufTy).Contents (Elt Ideal)) (x3 : (⟨S256x256, .f32⟩ : BufTy).Contents (Elt Ideal))
  (x4 : (⟨S256, .f32⟩ : BufTy).Contents (Elt Ideal)) (x5 : (⟨S256x128, .f32⟩ : BufTy).Contents (Elt Ideal))
  (x6 x7 x8 : (⟨S128, .f32⟩ : BufTy).Contents (Elt Ideal))

/-- Row `R` of the states, encoded with the reference's weights and biases. -/
abbrev rowEncoded (R : Fin 16384) : Fin 128 → EReal :=
  encode (fun k => x0 (ix2 R k)) (fun k j => x1 (ix2 k j)) (fun j => x2 (ix1 j))
    (fun k j => x3 (ix2 k j)) (fun j => x4 (ix1 j)) (fun k j => x5 (ix2 k j)) (fun j => x6 (ix1 j))

/-! ## The three layers -/

/-- The first layer, rectified, at `(R, k)`. -/
theorem layer1 (R : Fin 16384) (k : Fin 256) :
    val_main_v5 (F := Ideal) x0 x1 x2 (ix2 R k)
      = relu (dense (fun k' => x0 (ix2 R k')) (fun k j => x1 (ix2 k j)) (fun j => x2 (ix1 j)) k) := by
  have el : ∀ k' : Fin 512, lidx_main_v0 (ix2 R k : S16384x256.Idx) k' = ix2 R k' := fun k' =>
    funext fun a => Fin.ext (by match a with | ⟨0, _⟩ => rfl | ⟨1, _⟩ => rfl)
  have er : ∀ k' : Fin 512, ridx_main_v0 (ix2 R k : S16384x256.Idx) k' = ix2 k' k := fun k' =>
    funext fun a => Fin.ext (by match a with | ⟨0, _⟩ => rfl | ⟨1, _⟩ => rfl)
  have eb : idx_main_v1 (idx_main_v2 (ix2 R k : S16384x256.Idx)) = ix1 k :=
    funext fun a => Fin.ext (by match a with | ⟨0, _⟩ => rfl)
  rw [val_main_v5_apply, val_main_v3_apply, val_main_v0_apply, val_main_v2_apply, val_main_v1_apply, val_main_v4_apply,
    val_main_cst_apply]
  simp only [el, er, eb]
  rfl

/-- The second layer, rectified, at `(R, k)`. -/
theorem layer2 (R : Fin 16384) (k : Fin 256) :
    val_main_v11 (F := Ideal) x0 x1 x2 x3 x4 (ix2 R k)
      = relu (dense (fun k' => relu (dense (fun k'' => x0 (ix2 R k'')) (fun k j => x1 (ix2 k j)) (fun j => x2 (ix1 j)) k'))
          (fun k j => x3 (ix2 k j)) (fun j => x4 (ix1 j)) k) := by
  have el : ∀ k' : Fin 256, lidx_main_v6 (ix2 R k : S16384x256.Idx) k' = ix2 R k' := fun k' =>
    funext fun a => Fin.ext (by match a with | ⟨0, _⟩ => rfl | ⟨1, _⟩ => rfl)
  have er : ∀ k' : Fin 256, ridx_main_v6 (ix2 R k : S16384x256.Idx) k' = ix2 k' k := fun k' =>
    funext fun a => Fin.ext (by match a with | ⟨0, _⟩ => rfl | ⟨1, _⟩ => rfl)
  have eb : idx_main_v7 (idx_main_v8 (ix2 R k : S16384x256.Idx)) = ix1 k :=
    funext fun a => Fin.ext (by match a with | ⟨0, _⟩ => rfl)
  rw [val_main_v11_apply, val_main_v9_apply, val_main_v6_apply, val_main_v8_apply, val_main_v7_apply, val_main_v10_apply,
    val_main_cst_0_apply]
  simp only [el, er, eb, layer1]
  rfl

/-- The third layer at `(R, j)`: the encoding of row `R`. -/
theorem layer3 (R : Fin 16384) (j : Fin 128) :
    val_main_v15 (F := Ideal) x0 x1 x2 x3 x4 x5 x6 (ix2 R j) = rowEncoded x0 x1 x2 x3 x4 x5 x6 R j := by
  have el : ∀ k' : Fin 256, lidx_main_v12 (ix2 R j : S16384x128.Idx) k' = ix2 R k' := fun k' =>
    funext fun a => Fin.ext (by match a with | ⟨0, _⟩ => rfl | ⟨1, _⟩ => rfl)
  have er : ∀ k' : Fin 256, ridx_main_v12 (ix2 R j : S16384x128.Idx) k' = ix2 k' j := fun k' =>
    funext fun a => Fin.ext (by match a with | ⟨0, _⟩ => rfl | ⟨1, _⟩ => rfl)
  have eb : idx_main_v13 (idx_main_v14 (ix2 R j : S16384x128.Idx)) = ix1 j :=
    funext fun a => Fin.ext (by match a with | ⟨0, _⟩ => rfl)
  rw [val_main_v15_apply, val_main_v12_apply, val_main_v14_apply, val_main_v13_apply]
  simp only [el, er, eb, layer2]
  rfl

/-! ## The row statistics -/

/-- The column of means at `(R, ·)`: the mean of row `R`'s encoding (the sum starts from `+0.0`, which adds nothing). -/
theorem mean_entry (R : Fin 16384) (u : Fin 1) :
    val_main_v19 (F := Ideal) x0 x1 x2 x3 x4 x5 x6 (ix2 R u) = mean (rowEncoded x0 x1 x2 x3 x4 x5 x6 R) := by
  have ei : ∀ k : Fin 128, idx_main_v16 (idx_main_v17 (ix2 R u : S16384x1.Idx)) k = ix2 R k := fun k =>
    funext fun a => Fin.ext (by match a with | ⟨0, _⟩ => rfl | ⟨1, _⟩ => rfl)
  rw [val_main_v19_apply, val_main_v17_apply, val_main_v16_apply, val_main_v18_apply, val_main_cst_1_apply,
    val_main_cst_2_apply]
  simp only [ei, layer3]
  show Ideal.div (Ideal.ofBits .f32 0x00000000#32 + ∑ k : Fin 128, rowEncoded x0 x1 x2 x3 x4 x5 x6 R k) rowLen = _
  rw [Ideal.ofBits_zero_f32, zero_add]
  rfl

/-- The centred array at `(R, j)`, as the reference forms it for the variance. -/
theorem centred_entry_var (R : Fin 16384) (j : Fin 128) :
    val_main_v21 (F := Ideal) x0 x1 x2 x3 x4 x5 x6 (ix2 R j) = centred (rowEncoded x0 x1 x2 x3 x4 x5 x6 R) j := by
  have ei : idx_main_v20 (ix2 R j : S16384x128.Idx) = ix2 R (0 : Fin 1) :=
    funext fun a => Fin.ext (by match a with | ⟨0, _⟩ => rfl | ⟨1, _⟩ => rfl)
  rw [val_main_v21_apply, val_main_v20_apply, ei, mean_entry, layer3]
  rfl

/-- The centred array at `(R, j)`, as the reference forms it again for the quotient. -/
theorem centred_entry_quot (R : Fin 16384) (j : Fin 128) :
    val_main_v28 (F := Ideal) x0 x1 x2 x3 x4 x5 x6 (ix2 R j) = centred (rowEncoded x0 x1 x2 x3 x4 x5 x6 R) j := by
  have ei : idx_main_v27 (ix2 R j : S16384x128.Idx) = ix2 R (0 : Fin 1) :=
    funext fun a => Fin.ext (by match a with | ⟨0, _⟩ => rfl | ⟨1, _⟩ => rfl)
  rw [val_main_v28_apply, val_main_v27_apply, ei, mean_entry, layer3]
  rfl

/-- The column of variances at `(R, ·)`: the variance of row `R`'s encoding. -/
theorem variance_entry (R : Fin 16384) (u : Fin 1) :
    val_main_v26 (F := Ideal) x0 x1 x2 x3 x4 x5 x6 (ix2 R u) = variance (rowEncoded x0 x1 x2 x3 x4 x5 x6 R) := by
  have ei : ∀ k : Fin 128, idx_main_v23 (idx_main_v24 (ix2 R u : S16384x1.Idx)) k = ix2 R k := fun k =>
    funext fun a => Fin.ext (by match a with | ⟨0, _⟩ => rfl | ⟨1, _⟩ => rfl)
  rw [val_main_v26_apply, val_main_v24_apply, val_main_v23_apply, val_main_v25_apply, val_main_cst_3_apply,
    val_main_cst_4_apply]
  simp only [ei, val_main_v22_apply, centred_entry_var]
  show Ideal.div (Ideal.ofBits .f32 0x00000000#32
      + ∑ k : Fin 128, centred (rowEncoded x0 x1 x2 x3 x4 x5 x6 R) k * centred (rowEncoded x0 x1 x2 x3 x4 x5 x6 R) k) rowLen = _
  rw [Ideal.ofBits_zero_f32, zero_add]
  rfl

/-! ## The result -/

/-- The reference's result at `(R, j)`: row `R`'s encoding normalised by division by the root, gain `x7`, shift `x8`. -/
theorem result_entry (R : Fin 16384) (j : Fin 128) :
    val_main_v39 (F := Ideal) x0 x1 x2 x3 x4 x5 x6 x7 x8 (ix2 R j)
      = normDiv (rowEncoded x0 x1 x2 x3 x4 x5 x6 R) (fun j => x7 (ix1 j)) (fun j => x8 (ix1 j)) j := by
  have er : idx_main_v32 (ix2 R j : S16384x128.Idx) = ix2 R (0 : Fin 1) :=
    funext fun a => Fin.ext (by match a with | ⟨0, _⟩ => rfl | ⟨1, _⟩ => rfl)
  have eg : idx_main_v34 (idx_main_v35 (ix2 R j : S16384x128.Idx)) = ix1 j :=
    funext fun a => Fin.ext (by match a with | ⟨0, _⟩ => rfl)
  have es : idx_main_v37 (idx_main_v38 (ix2 R j : S16384x128.Idx)) = ix1 j :=
    funext fun a => Fin.ext (by match a with | ⟨0, _⟩ => rfl)
  rw [val_main_v39_apply, val_main_v36_apply, val_main_v33_apply, val_main_v32_apply, val_main_v31_apply,
    val_main_v30_apply, val_main_v29_apply, val_main_cst_5_apply, val_main_v35_apply, val_main_v34_apply,
    val_main_v38_apply, val_main_v37_apply, er, eg, es, centred_entry_quot, variance_entry]
  rfl

/-- THE REFERENCE'S RESULT IS THE SPECIFICATION: index by index, dividing by the root is multiplying by the reciprocal
    root, the radicand being strictly positive. -/
theorem result_eq : val_main_v39 (F := Ideal) x0 x1 x2 x3 x4 x5 x6 x7 x8 = result x0 x1 x2 x3 x4 x5 x6 x7 x8 := by
  funext i
  obtain ⟨R, j, rfl⟩ : ∃ (R : Fin 16384) (j : Fin 128), i = ix2 R j := ⟨i 0, i 1, eq_ix2 i⟩
  rw [result_entry, normDiv_eq_normMul]
  rfl

end Cert.ReferenceIdeal.RowValue

end
-- ==== Proof.lean ====
/-
  An encoder (three dense layers, 512 → 256 → 256 → 128, a rectifier after the first two) followed by layer
  normalisation over the 128 outputs of each of 16384 rows: a kernel that works on blocks of 1024 rows against a
  whole-array reference.

  Over the extended reals both programs compute, at `(R, j)`, the same row-wise function of row `R` of the states
  (Proof/EncoderNorm.lean, `result`): the encoding `h` of the row, its mean and variance along the row, and
  `(h j − mean) · (variance + ε)^(−1/2) · gain j + shift j`. The kernel multiplies by the reciprocal root, the
  reference divides by the root; the radicand `variance + ε` is strictly positive on the extended reals (a mean of
  squares is nonnegative, `ε` is a positive real), and for a strictly positive radicand — a positive real or `⊤` — the two
  are one function of every extended real numerator. So the claim needs no finiteness of the inputs.

  The kernel's side: entry `(r, j)` of the block the body stores is that row-wise function of row `r` of the staged
  block of states (Proof/KernelRow.lean: matrix products as sums, bias rows broadcast, lane sums kept as columns);
  point `t` of the 16-point grid writes it back as rows `1024·t …` of the result, and the sixteen blocks tile the
  result (Proof/KernelArray.lean). The reference's side: its operations read one at a time at an index
  (Proof/ReferenceRow.lean). The three frames: the two kernels' are their generated frame runs; the reference's is its
  run with the result dropped. The idealization rewrote nothing, so `preserves` has nothing to show.
-/
import proofs.«175038_g87505663689473_cont_9to1_m_1202_2_alg».proof.Defs
import proofs.«175038_g87505663689473_cont_9to1_m_1202_2_alg».proof.Proof.Gen.Kernel
import proofs.«175038_g87505663689473_cont_9to1_m_1202_2_alg».proof.Proof.Gen.Kernel.Skeleton
import proofs.«175038_g87505663689473_cont_9to1_m_1202_2_alg».proof.Proof.Gen.Kernel.Launch
import proofs.«175038_g87505663689473_cont_9to1_m_1202_2_alg».proof.Proof.Gen.Kernel.Points
import proofs.«175038_g87505663689473_cont_9to1_m_1202_2_alg».proof.Proof.Gen.Kernel.Frame
import proofs.«175038_g87505663689473_cont_9to1_m_1202_2_alg».proof.Proof.Gen.KernelIdeal
import proofs.«175038_g87505663689473_cont_9to1_m_1202_2_alg».proof.Proof.Gen.KernelIdeal.Skeleton
import proofs.«175038_g87505663689473_cont_9to1_m_1202_2_alg».proof.Proof.Gen.KernelIdeal.Launch
import proofs.«175038_g87505663689473_cont_9to1_m_1202_2_alg».proof.Proof.Gen.KernelIdeal.Points
import proofs.«175038_g87505663689473_cont_9to1_m_1202_2_alg».proof.Proof.Gen.KernelIdeal.Frame
import proofs.«175038_g87505663689473_cont_9to1_m_1202_2_alg».proof.Proof.Gen.ReferenceIdeal
import proofs.«175038_g87505663689473_cont_9to1_m_1202_2_alg».proof.Proof.Gen.Pre_finite_inputs
import proofs.«175038_g87505663689473_cont_9to1_m_1202_2_alg».proof.Proof.Gen.KernelIdeal.Value
import proofs.«175038_g87505663689473_cont_9to1_m_1202_2_alg».proof.Proof.Gen.ReferenceIdeal.Run
import proofs.«175038_g87505663689473_cont_9to1_m_1202_2_alg».proof.Proof.Gen.ReferenceIdeal.Read
import proofs.«175038_g87505663689473_cont_9to1_m_1202_2_alg».proof.Proof.KernelArray
import proofs.«175038_g87505663689473_cont_9to1_m_1202_2_alg».proof.Proof.ReferenceRow
import Idealize.ShloMosaic.Adequacy
import Idealize.ShloMosaic.Init

noncomputable section

namespace Cert.Proof

open Idealize.ShloMosaic Idealize.SL.Sem

/-- The word-level kernel terminates without a fault and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the nine arguments, both programs end with the result array at the row-wise
    specification of the arguments: the kernel block by block, the reference operation by operation. -/
theorem algebraic : Cert.algebraic_KernelIdeal_ReferenceIdeal := by
  intro m ρ m' ρ' _ hagree
  refine ⟨_, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v39_eq, Cert.ReferenceIdeal.RowValue.result_eq,
    (hagree c).1, (hagree c).2.1, (hagree c).2.2.1, (hagree c).2.2.2.1, (hagree c).2.2.2.2.1, (hagree c).2.2.2.2.2.1,
    (hagree c).2.2.2.2.2.2.1, (hagree c).2.2.2.2.2.2.2.1, (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
